-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S8192x4096 : Shape := ⟨2, ![8192, 4096]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S8192x4096 : S_.BroadcastsInDim S8192x4096 (![] : Fin 0 → Fin S8192x4096.rank)
  reducesTo_S8192x4096_S_d0_1 : S8192x4096.ReducesTo [0, 1] S_

variable [Facts]

def fn {F : FTy → Type} [FloatOps F] (main_arg0 : FVec F S16384x4096 .f32) (main_arg1 : FVec F S8192x4096 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S8192x4096 .f32 := Host.absf main_arg1
  let main_cst_0 : FVec F S_ .f32 := constant S_ .f32 0x7F800000#32
  let main_v5 : FVec F S8192x4096 .f32 := broadcastInDim S8192x4096 ![] bcast_S_S8192x4096 main_cst_0
  let main_v6 : IVec S8192x4096 1 := cmpf .olt main_v4 main_v5
  let main_c_1 : IVec S_ 1 := constantI S_ 1 1#1
  let main_v7 : IVec S_ 1 := (fun x v => Host.reduce IntOp.andi x v reducesTo_S8192x4096_S_d0_1 h_S_) main_v6 main_c_1
  let main_v8 : IVec S_ 1 := andi main_v3 main_v7
  main_v8
-- ==== Kernel.lean ====
abbrev S16384x4096 : Shape := ⟨2, ![16384, 4096]⟩
abbrev S8192x4096 : Shape := ⟨2, ![8192, 4096]⟩
abbrev S16384x8192 : Shape := ⟨2, ![16384, 8192]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S16384x4096, .f32⟩
  | .hbm, ⟨1, _⟩ => ⟨S8192x4096, .f32⟩
  | .hbm, ⟨2, _⟩ => ⟨S16384x8192, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 8, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x4096.size a
  hwx0_0 : ∀ i : grid0.Coords, EltTy.bits .f32 = 32 ∨ (Rect.block (s := S16384x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S8192x4096.size a
  hwx0_1 : ∀ i : grid0.Coords, EltTy.bits .f32 = 32 ∨ (Rect.block (s := S8192x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S16384x8192.size a
  hwx0_2 : ∀ i : grid0.Coords, EltTy.bits .f32 = 32 ∨ (Rect.block (s := S16384x8192) S1024x1024.size (cc0_transform_2 i) (hinb0_2 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16384x4096 : Shape := ⟨2, ![16384, 4096]⟩
abbrev S8192x4096 : Shape := ⟨2, ![8192, 4096]⟩
abbrev S16384x8192 : Shape := ⟨2, ![16384, 8192]⟩

abbrev nBuf : Space → Nat
  | .hbm => 3
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S8192x4096, .f32⟩
  | .hbm, ⟨2, _⟩ => ⟨S16384x8192, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S16384x4096_S8192x4096_S16384x8192_1_1_0_0_n_n_wf : DotDims.WF S16384x4096 S8192x4096 S16384x8192 [1] [1] [0] [0] [] []

variable [Facts₀]

def dot_S16384x4096_S8192x4096_S16384x8192_1_1_0_0_n_n : DotDims S16384x4096 S8192x4096 S16384x8192 where
  lhsContracting := [1]
  rhsContracting := [1]
  lhsNonContracting := [0]
  rhsNonContracting := [0]
  lhsBatch := []
  rhsBatch := []
  wf := dot_S16384x4096_S8192x4096_S16384x8192_1_1_0_0_n_n_wf

class Facts : Prop extends Facts₀ where

variable [Facts]
-- ==== Proof.Pieces.lean ====
/-
  What one grid point leaves behind, as a value. The body zeroes the accumulator at the first point of a run of four
  (k = 0), adds the product of the two loaded blocks into it at every point, and at the last point (k = 3) copies the
  accumulator into the output block. Whatever the float instance, each of these is one term: the accumulating
  payload applied to the two loaded blocks and to what the accumulator held before (the zero splat at a first point).
  The four lemmas below say so for the accumulator in each of the three control cases and for the output block in
  the copying case.
-/
import proofs.«126838_j85710367359546_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.Tactic
open Idealize.ShloMosaic.Pipeline (Dat)

namespace Cert.KernelIdeal.Pieces

open Cert.KernelIdeal Cert.KernelIdeal.Gen

variable {F : FTy → Type} [FloatOps F]

/-- Every store and load of the body is through the whole 1024 × 1024 block: the rectangle at offset (0, 0). -/
theorem origin : (![0, 0] : Fin 2 → Nat) = fun _ => 0 := funext fun a => by fin_cases a <;> rfl

/-- First point of a run (k = 0): the accumulator ends at the product added to the zero splat just stored. -/
theorem acc_first (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (hc0 : cond0_0 i) (hc1 : ¬cond0_1 i)
    (x0 : Vec F S1024x1024 .f32) (x1 : Vec F S1024x1024 .f32) :
    sout0_A_0 c i arg3 harg3 arg4 harg4 arg5 harg5 arg6 harg6 hc0 hc1 x0 x1 = k0_pay2 x0 x1 k0_pay1 := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  rw [View.canon_cons_unit_zero (S := S1024x1024) origin]
  simp only [View.readAt_eq_ld, harg3.read_unread, harg4.read_unread, View.readCov_unit_zero (S := S1024x1024) _ origin,
    View.ld_unit_zero (S := S1024x1024) origin]

/-- A middle point (k = 1, 2): the accumulator ends at the product added to what it held. -/
theorem acc_mid (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : ¬cond0_1 i)
    (x0 : Vec F S1024x1024 .f32) (x1 : Vec F S1024x1024 .f32) (xs0 : Vec F S1024x1024 .f32) :
    sout0_B_0 c i arg3 harg3 arg4 harg4 arg5 harg5 arg6 harg6 hc0 hc1 x0 x1 xs0 = k0_pay2 x0 x1 xs0 := by
  unfold sout0_B_0
  rw [View.read_writes_eq_canon _ _ _ (scover0_B_0 c i arg3 harg3 arg4 harg4 arg5 harg5 arg6 harg6 hc0 hc1 x0 x1 xs0)]
  unfold kernelRun0_B
  dsimp only
  sl_unfold_words
  rw [View.canon_unit_zero origin]
  simp only [View.readAt_eq_ld, harg3.read_unread, harg4.read_unread, harg6.read_unread, View.ld_unit_zero (S := S1024x1024) origin]

/-- The last point (k = 3): the accumulator likewise; -/
theorem acc_last (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : cond0_1 i)
    (x0 : Vec F S1024x1024 .f32) (x1 : Vec F S1024x1024 .f32) (xs0 : Vec F S1024x1024 .f32) :
    sout0_C_0 c i arg3 harg3 arg4 harg4 arg5 harg5 arg6 harg6 hc0 hc1 x0 x1 xs0 = k0_pay2 x0 x1 xs0 := by
  unfold sout0_C_0
  rw [View.read_writes_eq_canon _ _ _ (scover0_C_0 c i arg3 harg3 arg4 harg4 arg5 harg5 arg6 harg6 hc0 hc1 x0 x1 xs0)]
  unfold kernelRun0_C
  dsimp only
  sl_unfold_words
  rw [View.canon_unit_zero origin]
  simp only [View.readAt_eq_ld, harg3.read_unread, harg4.read_unread, harg6.read_unread, View.ld_unit_zero (S := S1024x1024) origin]

/-- and the output block, which is the accumulator read back after that store, is the same term. -/
theorem out_last (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : cond0_1 i)
    (x0 : Vec F S1024x1024 .f32) (x1 : Vec F S1024x1024 .f32) (xs0 : Vec F S1024x1024 .f32) :
    out0_C_2 c i arg3 harg3 arg4 harg4 arg5 harg5 arg6 harg6 hc0 hc1 x0 x1 xs0 = k0_pay2 x0 x1 xs0 := by
  unfold out0_C_2
  rw [View.read_writes_eq_canon _ _ _ (cover0_C_2 c i arg3 harg3 arg4 harg4 arg5 harg5 arg6 harg6 hc0 hc1 x0 x1 xs0)]
  unfold kernelRun0_C
  dsimp only
  sl_unfold_words
  rw [View.canon_unit_zero origin]
  simp only [View.readAt_eq_ld, harg3.read_unread, harg4.read_unread, harg6.read_unread, View.readCov_unit_zero (S := S1024x1024) _ origin,
    View.ld_unit_zero (S := S1024x1024) origin]

end Cert.KernelIdeal.Pieces

end
-- ==== Proof.Payload.lean ====
/-
  The accumulating payload read at an index, over the extended reals. There a change of float format is the identity and
  the matrix unit's product into a zero accumulator is the plain sum over the contraction axis, so entry (p, q) of the
  payload is the accumulator's entry plus the sum over k of row p of the first block times row q of the second
  (both blocks are contracted along their second axis: the second operand is used transposed). The zero splat reads 0.
-/
import proofs.«126838_j85710367359546_1_alg».proof.Proof.Gen.KernelIdeal.Skeleton
import proofs.«126838_j85710367359546_1_alg».proof.Proof.Gen.KernelIdeal
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem

namespace Cert.KernelIdeal.Payload

open Cert.KernelIdeal Cert.KernelIdeal.Gen Idealize.ShloMosaic.ValueIdx

/-- The left operand is read at the output's row … -/
theorem lhs_row (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
/-- … and at the contraction position; -/
theorem lhs_contr (i : S1024x1024.Idx) (q : dot_S1024x1024_S1024x1024_S1024x1024_1_1_0_0_n_n.contr.Idx) :
    (dot_S1024x1024_S1024x1024_S1024x1024_1_1_0_0_n_n.lhsIdx i q 1).val = (q ⟨0, by decide⟩).val :=
  dot_S1024x1024_S1024x1024_S1024x1024_1_1_0_0_n_n.lhsIdx_val_of_single rfl i q
/-- the right operand at the output's COLUMN, as its row, … -/
theorem rhs_row (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
/-- … and at the contraction position. -/
theorem rhs_contr (i : S1024x1024.Idx) (q : dot_S1024x1024_S1024x1024_S1024x1024_1_1_0_0_n_n.contr.Idx) :
    (dot_S1024x1024_S1024x1024_S1024x1024_1_1_0_0_n_n.rhsIdx i q 1).val = (q ⟨0, by decide⟩).val :=
  dot_S1024x1024_S1024x1024_S1024x1024_1_1_0_0_n_n.rhsIdx_val_of_single rfl i q

/-- The zero splat stored at a run's first point. -/
theorem zero_apply (j : S1024x1024.Idx) : (k0_pay1 (F := Ideal)) j = 0 := by
  unfold k0_pay1
  rw [shapeCast_self]
  show Ideal.ofBits .f32 0x00000000#32 = 0
  exact Ideal.ofBits_zero_f32

/-- One accumulation step at entry (p, q): the accumulator there plus Σₖ x0[p, k] · x1[q, k]. -/
theorem step_apply (x0 x1 acc : Vec Ideal S1024x1024 .f32) (p q : Fin 1024) :
    k0_pay2 (F := Ideal) x0 x1 acc (ix2 p q) = acc (ix2 p q) + ∑ k : Fin 1024, x0 (ix2 p k) * x1 (ix2 q k) := by
  unfold k0_pay2
  rw [shapeCast_self]
  show acc (ix2 p q) + FloatOps.matmul (F := Ideal) dot_S1024x1024_S1024x1024_S1024x1024_1_1_0_0_n_n none (truncf (F := Ideal) .bf16 x0 bitsLt_bf16_f32) (truncf (F := Ideal) .bf16 x1 bitsLt_bf16_f32) (constant (F := Ideal) S1024x1024 .f32 0x00000000#32) (ix2 p q) = _
  rw [Ideal.matmul_constant_zero_apply, ← Equiv.sum_comp (contrEquiv1 dot_S1024x1024_S1024x1024_S1024x1024_1_1_0_0_n_n 1024 rfl rfl).symm]
  refine congrArg (acc (ix2 p q) + ·) (Finset.sum_congr rfl fun k _ => ?_)
  have hk := contrEquiv1_symm_val dot_S1024x1024_S1024x1024_S1024x1024_1_1_0_0_n_n 1024 rfl rfl k
  have el : dot_S1024x1024_S1024x1024_S1024x1024_1_1_0_0_n_n.lhsIdx (ix2 p q) ((contrEquiv1 dot_S1024x1024_S1024x1024_S1024x1024_1_1_0_0_n_n 1024 rfl rfl).symm k) = ix2 p k := funext fun a => Fin.ext (by
    match a with
    | ⟨0, _⟩ => exact lhs_row _ _
    | ⟨1, _⟩ => exact (lhs_contr _ _).trans hk)
  have er : dot_S1024x1024_S1024x1024_S1024x1024_1_1_0_0_n_n.rhsIdx (ix2 p q) ((contrEquiv1 dot_S1024x1024_S1024x1024_S1024x1024_1_1_0_0_n_n 1024 rfl rfl).symm k) = ix2 q k := funext fun a => Fin.ext (by
    match a with
    | ⟨0, _⟩ => exact rhs_row _ _
    | ⟨1, _⟩ => exact (rhs_contr _ _).trans hk)
  rw [el, er]
  rfl

end Cert.KernelIdeal.Payload

end
-- ==== Proof.Blocks.lean ====
/-
  Where each window's block sits in its array. The grid is 16 × 8 × 4, walked row-major, so point t has
  coordinates (t / 32, (t / 4) % 8, t % 4) = (row block, column block, contraction chunk). The first operand's block at t
  is rows 1024·(t/32) … and columns 1024·(t%4) … of x; the second operand's is rows 1024·((t/4)%8) … and columns
  1024·(t%4) … of P; the output's is rows 1024·(t/32) …, columns 1024·((t/4)%8) … of the result.
  To speak of "entry (r, k) of an array" for plain naturals r, k — so that sums can be re-indexed without carrying
  bound proofs — the arrays are read through `xAt` / `pAt`, which reduce the position modulo the extents (inside the
  array that is the position itself).
-/
import proofs.«126838_j85710367359546_1_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)

namespace Cert.KernelIdeal.Blocks

open Cert.KernelIdeal Cert.KernelIdeal.Gen Idealize.ShloMosaic.ValueIdx

variable {F : FTy → Type} [FloatOps F]

/-- Entry (r, k) of a 16384 × 4096 array, for any naturals (reduced modulo the extents). -/
def xAt {α : Type} (X : S16384x4096.Idx → α) (r k : ℕ) : α :=
  X (ix2 (⟨r % 16384, Nat.mod_lt _ (by decide)⟩ : Fin 16384) (⟨k % 4096, Nat.mod_lt _ (by decide)⟩ : Fin 4096))

/-- Entry (r, k) of an 8192 × 4096 array, likewise. -/
def pAt {α : Type} (P : S8192x4096.Idx → α) (r k : ℕ) : α :=
  P (ix2 (⟨r % 8192, Nat.mod_lt _ (by decide)⟩ : Fin 8192) (⟨k % 4096, Nat.mod_lt _ (by decide)⟩ : Fin 4096))

theorem xAt_ix2 {α : Type} (X : S16384x4096.Idx → α) (r : Fin 16384) (k : Fin 4096) : xAt X r.val k.val = X (ix2 r k) := by
  unfold xAt
  congr 1
  funext a
  apply Fin.ext
  match a with
  | ⟨0, _⟩ => exact Nat.mod_eq_of_lt r.isLt
  | ⟨1, _⟩ => exact Nat.mod_eq_of_lt k.isLt

theorem pAt_ix2 {α : Type} (P : S8192x4096.Idx → α) (r : Fin 8192) (k : Fin 4096) : pAt P r.val k.val = P (ix2 r k) := by
  unfold pAt
  congr 1
  funext a
  apply Fin.ext
  match a with
  | ⟨0, _⟩ => exact Nat.mod_eq_of_lt r.isLt
  | ⟨1, _⟩ => exact Nat.mod_eq_of_lt k.isLt

/-- The printed index maps in closed form, decided over the 512 grid points. -/
theorem index_facts : ∀ t : Fin cfg0.N,
    win0_0.index t (0 : Fin 2) = t.val / 32 ∧ win0_0.index t (1 : Fin 2) = t.val % 4
    ∧ win0_1.index t (0 : Fin 2) = t.val / 4 % 8 ∧ win0_1.index t (1 : Fin 2) = t.val % 4
    ∧ win0_2.index t (0 : Fin 2) = t.val / 32 ∧ win0_2.index t (1 : Fin 2) = t.val / 4 % 8 :=
  (by decide +kernel : ∀ t : Fin grid0.N, _)

variable (m : (ℓ : Loc nD τ sig) → Buf (Elt F) ℓ)

/-- The first operand's block at point t, entry (p, k): x at row 1024·(t/32) + p, column 1024·(t%4) + k. -/
theorem xblock_apply (c : Dev nD) (t : Fin cfg0.N) (p k : Fin 1024) :
    (iblk m c 0 t : Vec F S1024x1024 .f32) (ix2 p k)
      = xAt (m ((c : Thread nD τ).loc main_arg0)) (1024 * (t.val / 32) + p.val) (1024 * (t.val % 4) + k.val) := by
  obtain ⟨e0, e1, -, -, -, -⟩ := index_facts t
  have ht : t.val < 512 := lt_of_lt_of_eq t.isLt N_0
  unfold iblk xAt
  rw [View.read_apply]
  show V m c main_arg0 _ = m (c.tc.loc main_arg0) _
  unfold V
  congr 1
  funext a
  apply Fin.ext
  match a with
  | ⟨0, _⟩ => show win0_0.index t 0 * 1024 + 1 * p.val = (1024 * (t.val / 32) + p.val) % 16384; rw [e0]; have := p.isLt; omega
  | ⟨1, _⟩ => show win0_0.index t 1 * 1024 + 1 * k.val = (1024 * (t.val % 4) + k.val) % 4096; rw [e1]; have := k.isLt; omega

/-- The second operand's block at point t, entry (q, k): P at row 1024·((t/4)%8) + q, column 1024·(t%4) + k. -/
theorem pblock_apply (c : Dev nD) (t : Fin cfg0.N) (q k : Fin 1024) :
    (iblk m c 1 t : Vec F S1024x1024 .f32) (ix2 q k)
      = pAt (m ((c : Thread nD τ).loc main_arg1)) (1024 * (t.val / 4 % 8) + q.val) (1024 * (t.val % 4) + k.val) := by
  obtain ⟨-, -, e0, e1, -, -⟩ := index_facts t
  have ht : t.val < 512 := lt_of_lt_of_eq t.isLt N_0
  unfold iblk pAt
  rw [View.read_apply]
  show V m c main_arg1 _ = m (c.tc.loc main_arg1) _
  unfold V
  congr 1
  funext a
  apply Fin.ext
  match a with
  | ⟨0, _⟩ => show win0_1.index t 0 * 1024 + 1 * q.val = (1024 * (t.val / 4 % 8) + q.val) % 8192; rw [e0]; have := q.isLt; omega
  | ⟨1, _⟩ => show win0_1.index t 1 * 1024 + 1 * k.val = (1024 * (t.val % 4) + k.val) % 4096; rw [e1]; have := k.isLt; omega

end Cert.KernelIdeal.Blocks

end
-- ==== Proof.Chunks.lean ====
/-
  The one law that joins the two sides: a sum over a contraction axis of length a·b is the sum, over the a chunks
  of length b, of each chunk's sum. It holds in any commutative additive monoid — in particular over the extended
  reals, where it needs no finiteness: only the order and grouping of the terms change.
-/
import Mathlib.Algebra.BigOperators.Fin
import Mathlib.Logic.Equiv.Fin.Basic

namespace Cert.Chunks

/-- Summing `g` over the positions `b·s + k` (chunk `s < a`, offset `k < b`) is summing it over all `a·b` positions. -/
theorem sum_chunks {β : Type*} [AddCommMonoid β] (a b : ℕ) (g : ℕ → β) :
    ∑ s ∈ Finset.range a, ∑ k : Fin b, g (b * s + k.val) = ∑ kk : Fin (a * b), g kk.val := by
  calc ∑ s ∈ Finset.range a, ∑ k : Fin b, g (b * s + k.val)
      = ∑ s : Fin a, ∑ k : Fin b, g (b * s.val + k.val) := Finset.sum_range fun s => ∑ k : Fin b, g (b * s + k.val)
    _ = ∑ x : Fin a × Fin b, g (b * x.1.val + x.2.val) :=
        (Fintype.sum_prod_type' fun (s : Fin a) (k : Fin b) => g (b * s.val + k.val)).symm
    _ = ∑ x : Fin a × Fin b, g (finProdFinEquiv x).val :=
        Finset.sum_congr rfl fun x _ => congrArg g (by rw [finProdFinEquiv_apply_val, add_comm])
    _ = ∑ kk : Fin (a * b), g kk.val := Equiv.sum_comp finProdFinEquiv fun kk => g kk.val

/-- The instance the matrix product needs: four chunks of 1024 make the contraction axis of 4096. -/
theorem sum_four_chunks {β : Type*} [AddCommMonoid β] (g : ℕ → β) :
    ∑ s ∈ Finset.range 4, ∑ k : Fin 1024, g (1024 * s + k.val) = ∑ kk : Fin 4096, g kk.val :=
  sum_chunks 4 1024 g

end Cert.Chunks
-- ==== Proof.Fold.lean ====
/-
  The accumulator over a run of four consecutive points, and what the last of them writes back.
  Point n's ADDEND at entry (p, q) of the block is Σ_{k<1024} x[1024·(n/32) + p, 1024·(n%4) + k] · P[1024·((n/4)%8) + q, 1024·(n%4) + k]:
  the product of the two blocks the windows hold at n. The first point of a run (n ≡ 0 mod 4) leaves 0 + addend, every
  later one adds its addend to what the point before left, so after the run's fourth point the accumulator is
  0 + the four addends — which, the four points sharing their row and column block and walking the four contraction
  chunks, is the full sum over the 4096 contraction positions. The fourth point copies it to the output block.
-/
import proofs.«126838_j85710367359546_1_alg».proof.Proof.Pieces
import proofs.«126838_j85710367359546_1_alg».proof.Proof.Payload
import proofs.«126838_j85710367359546_1_alg».proof.Proof.Blocks
import proofs.«126838_j85710367359546_1_alg».proof.Proof.Chunks
import proofs.«126838_j85710367359546_1_alg».proof.Proof.Gen.KernelIdeal.Value

noncomputable section

open Idealize.ShloMosaic Idealize.ShloMosaic.TcCoe Idealize.SL.Sem
open Idealize.ShloMosaic.Pipeline (Dat)

namespace Cert.KernelIdeal.Fold

open Cert.KernelIdeal Cert.KernelIdeal.Gen Cert.KernelIdeal.Value Cert.KernelIdeal.Blocks Idealize.ShloMosaic.ValueIdx

variable (m : (ℓ : Loc nD τ sig) → Buf (Elt Ideal) ℓ)

/-- The two argument arrays on core c, as arrays of extended reals. -/
abbrev xarr (c : Dev nD) : S16384x4096.Idx → EReal := m ((c : Thread nD τ).loc main_arg0)
abbrev parr (c : Dev nD) : S8192x4096.Idx → EReal := m ((c : Thread nD τ).loc main_arg1)

/-- Point n's addend at an entry of the block: the product of the two blocks the windows hold at n. -/
def addend (c : Dev nD) (n : ℕ) : S1024x1024.Idx → EReal := fun j =>
  ∑ k : Fin 1024, xAt (xarr m c) (1024 * (n / 32) + (j 0).val) (1024 * (n % 4) + k.val)
    * pAt (parr m c) (1024 * (n / 4 % 8) + (j 1).val) (1024 * (n % 4) + k.val)

/-- The payload at point t's blocks adds t's addend to the accumulator. -/
theorem step_at (c : Dev nD) (t : Fin cfg0.N) (acc : Vec Ideal S1024x1024 .f32) (j : S1024x1024.Idx) :
    k0_pay2 (F := Ideal) (iblk m c 0 t) (iblk m c 1 t) acc j = acc j + addend m c t.val j := by
  obtain ⟨p, q, rfl⟩ : ∃ (p q : Fin 1024), j = ix2 p q := ⟨j 0, j 1, eq_ix2 j⟩
  refine (Payload.step_apply (iblk m c 0 t) (iblk m c 1 t) acc p q).trans ?_
  unfold addend
  refine congrArg (acc (ix2 p q) + ·) (Finset.sum_congr rfl fun k _ => ?_)
  exact congrArg₂ (· * ·) (xblock_apply m c t p k) (pblock_apply m c t q k)

/-- A later point of a run adds its addend to what the point before left in the accumulator. -/
theorem scratch_step (c : Dev nD) (n : ℕ) (hb : n < cfg0.N) (h0 : ¬n % 4 = 0) (acc : Vec Ideal S1024x1024 .f32) (j : S1024x1024.Idx) :
    scAt0_0 m c n hb acc j = acc j + addend m c n j := by
  unfold scAt0_0
  rw [dif_neg h0]
  by_cases h1 : n % 4 = 3
  · rw [dif_pos h1]
    refine (congrFun (Pieces.acc_last (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) acc) j).trans ?_
    exact step_at m c (⟨n, hb⟩ : Fin cfg0.N) acc j
  · rw [dif_neg h1]
    refine (congrFun (Pieces.acc_mid (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) acc) j).trans ?_
    exact step_at m c (⟨n, hb⟩ : Fin cfg0.N) acc j

/-- The first point of a run leaves 0 + its addend, whatever the accumulator held. -/
theorem scratch_first (c : Dev nD) (n : ℕ) (hb : n < cfg0.N) (h0 : n % 4 = 0) (old : Vec Ideal S1024x1024 .f32) (j : S1024x1024.Idx) :
    scAt0_0 m c n hb old j = 0 + addend m c n j := by
  have h1 : ¬n % 4 = 3 := by omega
  unfold scAt0_0
  rw [dif_pos h0, dif_neg h1]
  refine (congrFun (Pieces.acc_first (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N))) j).trans ?_
  refine (step_at m c (⟨n, hb⟩ : Fin cfg0.N) (k0_pay1 (F := Ideal)) j).trans ?_
  rw [Payload.zero_apply]

/-- After a run's last point the accumulator is 0 + the run's four addends. -/
theorem scratch_last (c : Dev nD) (t : Fin cfg0.N) (h3 : t.val % 4 = 3) (j : S1024x1024.Idx) :
    (outsAt0 m c t.val t.isLt).2 j = 0 + ∑ s ∈ Finset.range 4, addend m c (4 * (t.val / 4) + s) j := by
  rw [soutsAt0_0_eq m c t]
  have key : ∀ (d : ℕ) (hd : d = 3) (h : 4 * (t.val / 4) + d < cfg0.N),
      Pipeline.accAt (fun n h => scAt0_0 m c n h (VS0_0.read (Elt Ideal) VS0_0.junk)) (scAt0_0 m c) (4 * (t.val / 4)) d h j
        = 0 + ∑ s ∈ Finset.range 4, addend m c (4 * (t.val / 4) + s) j := by
    intro d hd h
    subst hd
    exact Pipeline.accAt_add_apply _ _ (fun _ => 0) (addend m c) (4 * (t.val / 4)) 3
      (fun hb i => scratch_first m c _ hb (by omega) _ i)
      (fun n hn acc i h1 h2 => scratch_step m c n hn (by omega) acc i) 3 le_rfl h j
  exact key _ h3 _

/-- At a run's last point the output block is the accumulator. -/
theorem out_eq_scratch (c : Dev nD) (t : Fin cfg0.N) (h3 : t.val % 4 = 3) :
    (outsAt0 m c t.val t.isLt).1 = (outsAt0 m c t.val t.isLt).2 := by
  have h0 : ¬t.val % 4 = 0 := by omega
  rw [outsAt0_C m c t h0 h3]
  dsimp only
  exact (Pieces.out_last (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h3) (iblk m c 0 t) (iblk m c 1 t) (outsAt0 m c (t.val - 1) (Nat.lt_of_le_of_lt (Nat.sub_le _ _) t.isLt)).2).trans
    (Pieces.acc_last (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h3) (iblk m c 0 t) (iblk m c 1 t) (outsAt0 m c (t.val - 1) (Nat.lt_of_le_of_lt (Nat.sub_le _ _) t.isLt)).2).symm

/-- The four addends of a run are the full contraction: Σ_{kk<4096} x[R, kk] · P[C, kk] at the run's row and column. -/
theorem run_sum (c : Dev nD) (t : Fin cfg0.N) (j : S1024x1024.Idx) :
    ∑ s ∈ Finset.range 4, addend m c (4 * (t.val / 4) + s) j
      = ∑ kk : Fin 4096, xAt (xarr m c) (1024 * (t.val / 32) + (j 0).val) kk.val
          * pAt (parr m c) (1024 * (t.val / 4 % 8) + (j 1).val) kk.val := by
  rw [← Cert.Chunks.sum_four_chunks fun kk => xAt (xarr m c) (1024 * (t.val / 32) + (j 0).val) kk
          * pAt (parr m c) (1024 * (t.val / 4 % 8) + (j 1).val) kk]
  refine Finset.sum_congr rfl fun s hs => ?_
  have hs4 : s < 4 := Finset.mem_range.mp hs
  unfold addend
  have e1 : (4 * (t.val / 4) + s) / 32 = t.val / 32 := by omega
  have e2 : (4 * (t.val / 4) + s) % 4 = s := by omega
  have e3 : (4 * (t.val / 4) + s) / 4 % 8 = t.val / 4 % 8 := by omega
  rw [e1, e2, e3]

end Cert.KernelIdeal.Fold

end
-- ==== Proof.Final.lean ====
/-
  The result array after the kernel's run. Only the last point of each run of four writes its block back, and what it
  writes is the accumulator: the full contraction Σ_{kk<4096} x[R, kk] · P[C, kk] at the block's rows R and columns C.
  That is the block, at that point, of ONE whole-array function — entry (r, c) of the result is Σ_kk x[r, kk] · P[c, kk],
  i.e. x · Pᵀ — and the 16 × 8 output blocks tile the 16384 × 8192 array (entry (r, c) lies in the block of the point
  32·(r/1024) + 4·(c/1024) + 3), so the array ends holding that function everywhere.
-/
import proofs.«126838_j85710367359546_1_alg».proof.Proof.Fold

noncomputable section

open Idealize.ShloMosaic Idealize.ShloMosaic.TcCoe Idealize.SL.Sem
open Idealize.ShloMosaic.Pipeline (Dat)

namespace Cert.KernelIdeal.Final

open Cert.KernelIdeal Cert.KernelIdeal.Gen Cert.KernelIdeal.Value Cert.KernelIdeal.Blocks Cert.KernelIdeal.Fold Idealize.ShloMosaic.ValueIdx

variable (m : (ℓ : Loc nD τ sig) → Buf (Elt Ideal) ℓ) (ρ : Dev nD → PrngReg)

/-- x · Pᵀ over the extended reals: entry (r, c) is Σ_{kk<4096} x[r, kk] · P[c, kk]. -/
def product (x : S16384x4096.Idx → EReal) (P : S8192x4096.Idx → EReal) : S16384x8192.Idx → EReal := fun i =>
  ∑ kk : Fin 4096, x (ix2 (i 0) kk) * P (ix2 (i 1) kk)

/-- What a flushing point writes back is its block of x · Pᵀ of the argument arrays. -/
theorem flushed_eq (c : Dev nD) (t : Fin cfg0.N) (hf : (cfg0.win 2).flush t = true) :
    (dats m 0 c).flushed 2 t = ((cfg0.win 2).blk t).view.read (Elt Ideal) (product (xarr m c) (parr m c)) := by
  have h3 : t.val % 4 = 3 := (flush0_2 t).mp hf
  rw [flushed2, out_eq_scratch m c t h3]
  funext j
  show (outsAt0 m c t.val t.isLt).2 j = product (xarr m c) (parr m c) (((cfg0.win 2).blk t).view.emb j)
  rw [scratch_last m c t h3 j, run_sum m c t j, zero_add]
  obtain ⟨-, -, -, -, e0, e1⟩ := index_facts t
  have hr : 1024 * (t.val / 32) + (j 0).val = ((((cfg0.win 2).blk t).view.emb j) 0).val := by
    show _ = win0_2.index t 0 * 1024 + 1 * (j 0).val
    rw [e0]; omega
  have hc : 1024 * (t.val / 4 % 8) + (j 1).val = ((((cfg0.win 2).blk t).view.emb j) 1).val := by
    show _ = win0_2.index t 1 * 1024 + 1 * (j 1).val
    rw [e1]; omega
  unfold product
  refine Finset.sum_congr rfl fun kk _ => ?_
  exact congrArg₂ (· * ·)
    ((congrArg (fun r => xAt (xarr m c) r kk.val) hr).trans (xAt_ix2 (xarr m c) ((((cfg0.win 2).blk t).view.emb j) 0) kk))
    ((congrArg (fun r => pAt (parr m c) r kk.val) hc).trans (pAt_ix2 (parr m c) ((((cfg0.win 2).blk t).view.emb j) 1) kk))

/-- An entry of the result array lies in point t's output block iff each coordinate lies in the block's range. -/
theorem mem_blk (t : Fin cfg0.N) (i : S16384x8192.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v0).slice (win0_2.rect t)).set ↔ _
  rw [View.set_slice_whole, Rect.mem_set_unit]
  exact Iff.rfl

/-- Every entry (r, c) of the result array is in the block some flushing point writes: point 32·(r/1024) + 4·(c/1024) + 3. -/
theorem covered (i : S16384x8192.Idx) :
    ∃ t : Fin cfg0.N, (cfg0.win 2).flush t = true ∧ i ∈ ((cfg0.win 2).blk t).view.set := by
  have h0 : (i 0).val < 16384 := (i 0).isLt
  have h1 : (i 1).val < 8192 := (i 1).isLt
  obtain ⟨T, hT⟩ : ∃ T, T = 32 * ((i 0).val / 1024) + 4 * ((i 1).val / 1024) + 3 := ⟨_, rfl⟩
  have hN : T < cfg0.N := by rw [show cfg0.N = 512 from N_0]; omega
  obtain ⟨-, -, -, -, e0, e1⟩ := index_facts ⟨T, hN⟩
  have e0' : win0_2.index ⟨T, hN⟩ (0 : Fin 2) = T / 32 := e0
  have e1' : win0_2.index ⟨T, hN⟩ (1 : Fin 2) = T / 4 % 8 := e1
  refine ⟨⟨T, hN⟩, (flush0_2 ⟨T, hN⟩).mpr (by show T % 4 = 3; omega), ?_⟩
  rw [mem_blk]
  intro a
  match a with
  | ⟨0, _⟩ => show win0_2.index ⟨T, hN⟩ (0 : Fin 2) * 1024 ≤ (i 0).val ∧ (i 0).val < win0_2.index ⟨T, hN⟩ (0 : Fin 2) * 1024 + 1024; rw [e0']; omega
  | ⟨1, _⟩ => show win0_2.index ⟨T, hN⟩ (1 : Fin 2) * 1024 ≤ (i 1).val ∧ (i 1).val < win0_2.index ⟨T, hN⟩ (1 : Fin 2) * 1024 + 1024; rw [e1']; omega

/-- So the result array ends at x · Pᵀ of the argument arrays. -/
theorem final (c : Dev nD) : (dats m 0 c).arrAt 2 cfg0.N = product (xarr m c) (parr m c) :=
  (dats m 0 c).arrAt_eq_of_cover 2 (product (xarr m c) (parr m c)) (fun t hf => flushed_eq m c t hf) covered

/-- The kernel's run, read: the result at x · Pᵀ, the arguments unchanged. -/
theorem run : θ_run defs (onTc (τ := τ) (main (F := Ideal))) ⟨m, fun _ => 0, ρ⟩ fun r => ∀ c : Dev nD,
      r.2.mem ((c : Thread nD τ).loc main_v0) = product (xarr m c) (parr m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.Final

end
-- ==== Proof.RefValue.lean ====
/-
  The reference's side. jnp's einsum 'nd,fd->nf' lowers to one dot_general contracting the second axis of both
  operands; over the extended reals its entry (r, c) is Σ_{kk<4096} x[r, kk] · P[c, kk] — the same whole-array function
  the kernel's result array ends holding.
-/
import proofs.«126838_j85710367359546_1_alg».proof.Proof.Final
import proofs.«126838_j85710367359546_1_alg».proof.Proof.Gen.ReferenceIdeal.Read

noncomputable section

open Idealize.ShloMosaic Idealize.ShloMosaic.TcCoe Idealize.SL.Sem

namespace Cert.ReferenceIdeal.RefValue

open Cert.ReferenceIdeal Cert.ReferenceIdeal.Gen Cert.ReferenceIdeal.Read Idealize.ShloMosaic.ValueIdx

/-- The host's dot_general of the two arguments is x · Pᵀ. -/
theorem dot_eq_product (x0 : FVec Ideal S16384x4096 .f32) (x1 : FVec Ideal S8192x4096 .f32) :
    Host.dotGeneral (F := Ideal) dot_S16384x4096_S8192x4096_S16384x8192_1_1_0_0_n_n none x0 x1 = Cert.KernelIdeal.Final.product x0 x1 := by
  rw [val_main_v0_eq]
  funext i
  rw [val_main_v0_apply]
  unfold Cert.KernelIdeal.Final.product
  refine Finset.sum_congr rfl fun k _ => ?_
  have el : lidx_main_v0 i k = ix2 (i 0) k := funext fun a => Fin.ext (by match a with | ⟨0, _⟩ => rfl | ⟨1, _⟩ => rfl)
  have er : ridx_main_v0 i k = ix2 (i 1) k := funext fun a => Fin.ext (by match a with | ⟨0, _⟩ => rfl | ⟨1, _⟩ => rfl)
  rw [el, er]
  rfl

end Cert.ReferenceIdeal.RefValue

end
-- ==== Proof.lean ====
/-
  x · Pᵀ, computed block by block. The kernel tiles the 16384 × 8192 result into 1024 × 1024 blocks and the 4096-long
  contraction into four chunks: for each output block it zeroes an accumulator, adds the product of the matching
  1024 × 1024 blocks of x and P (fed to the matrix unit in bf16, a change of format that is the identity over the
  extended reals) for each of the four chunks, and writes the accumulator out after the fourth. The reference is one
  dot_general over the whole contraction axis. Over the extended reals both results are, entry by entry,
  Σ_{kk<4096} x[r, kk] · P[c, kk]: the kernel's four partial sums are that sum regrouped, which needs only that
  addition is commutative and associative, so the finiteness of the inputs is never used.

  The frames of the two kernel programs are the generated ones, the reference's frame is its generated run with the
  result dropped, and the ideal pass rewrote nothing, so `preserves` is trivial.
-/
import proofs.«126838_j85710367359546_1_alg».proof.Defs
import proofs.«126838_j85710367359546_1_alg».proof.Proof.Gen.Kernel
import proofs.«126838_j85710367359546_1_alg».proof.Proof.Gen.Kernel.Skeleton
import proofs.«126838_j85710367359546_1_alg».proof.Proof.Gen.Kernel.Launch
import proofs.«126838_j85710367359546_1_alg».proof.Proof.Gen.Kernel.Points
import proofs.«126838_j85710367359546_1_alg».proof.Proof.Gen.Kernel.Frame
import proofs.«126838_j85710367359546_1_alg».proof.Proof.Gen.KernelIdeal
import proofs.«126838_j85710367359546_1_alg».proof.Proof.Gen.KernelIdeal.Skeleton
import proofs.«126838_j85710367359546_1_alg».proof.Proof.Gen.KernelIdeal.Launch
import proofs.«126838_j85710367359546_1_alg».proof.Proof.Gen.KernelIdeal.Points
import proofs.«126838_j85710367359546_1_alg».proof.Proof.Gen.KernelIdeal.Frame
import proofs.«126838_j85710367359546_1_alg».proof.Proof.Gen.ReferenceIdeal
import proofs.«126838_j85710367359546_1_alg».proof.Proof.Gen.Pre_finite_inputs
import proofs.«126838_j85710367359546_1_alg».proof.Proof.Gen.KernelIdeal.Value
import proofs.«126838_j85710367359546_1_alg».proof.Proof.Gen.ReferenceIdeal.Run
import proofs.«126838_j85710367359546_1_alg».proof.Proof.Gen.ReferenceIdeal.Read
import proofs.«126838_j85710367359546_1_alg».proof.Proof.Final
import proofs.«126838_j85710367359546_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result array at x · Pᵀ of arguments that agree. -/
theorem algebraic : Cert.algebraic_KernelIdeal_ReferenceIdeal := by
  intro m ρ m' ρ' _ hagree
  refine ⟨fun c => Cert.KernelIdeal.Final.product (Cert.KernelIdeal.Fold.xarr m c) (Cert.KernelIdeal.Fold.parr m c),
    Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact Cert.ReferenceIdeal.RefValue.dot_eq_product _ _

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
